-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x128 : Shape := ⟨3, ![16384, 32, 128]⟩
abbrev S32x16384 : Shape := ⟨2, ![32, 16384]⟩
abbrev S_ : Shape := ⟨0, ![]⟩

class Facts : Prop where
  bcast_S_S16384x32x128 : S_.BroadcastsInDim S16384x32x128 (![] : Fin 0 → Fin S16384x32x128.rank)
  reducesTo_S16384x32x128_S_d0_1_2 : S16384x32x128.ReducesTo [0, 1, 2] S_
  h_S_ : 0 < S_.numel
  bcast_S_S32x16384 : S_.BroadcastsInDim S32x16384 (![] : Fin 0 → Fin S32x16384.rank)
  reducesTo_S32x16384_S_d0_1 : S32x16384.ReducesTo [0, 1] S_

variable [Facts]

def fn_part1 {F : FTy → Type} [FloatOps F] (main_v13 : IVec S_ 1) (main_v16 : IVec S32x16384 1) : IVec S_ 1 :=
  let main_c_5 : IVec S_ 1 := constantI S_ 1 1#1
  let main_v17 : IVec S_ 1 := (fun x v => Host.reduce IntOp.andi x v reducesTo_S32x16384_S_d0_1 h_S_) main_v16 main_c_5
  let main_v18 : IVec S_ 1 := andi main_v13 main_v17
  main_v18

def fn {F : FTy → Type} [FloatOps F] (main_arg0 : FVec F S16384x32x128 .f32) (main_arg1 : FVec F S32x16384 .f32) (main_arg2 : FVec F S16384x32x128 .f32) (main_arg3 : FVec F S32x16384 .f32) : IVec S_ 1 :=
  let main_v0 : FVec F S16384x32x128 .f32 := Host.absf main_arg0
  let main_cst : FVec F S_ .f32 := constant S_ .f32 0x7F800000#32
  let main_v1 : FVec F S16384x32x128 .f32 := broadcastInDim S16384x32x128 ![] bcast_S_S16384x32x128 main_cst
  let main_v2 : IVec S16384x32x128 1 := cmpf .olt main_v0 main_v1
  let main_c : IVec S_ 1 := constantI S_ 1 1#1
  let main_v3 : IVec S_ 1 := (fun x v => Host.reduce IntOp.andi x v reducesTo_S16384x32x128_S_d0_1_2 h_S_) main_v2 main_c
  let main_v4 : FVec F S32x16384 .f32 := Host.absf main_arg1
  let main_cst_0 : FVec F S_ .f32 := constant S_ .f32 0x7F800000#32
  let main_v5 : FVec F S32x16384 .f32 := broadcastInDim S32x16384 ![] bcast_S_S32x16384 main_cst_0
  let main_v6 : IVec S32x16384 1 := cmpf .olt main_v4 main_v5
  let main_c_1 : IVec S_ 1 := constantI S_ 1 1#1
  let main_v7 : IVec S_ 1 := (fun x v => Host.reduce IntOp.andi x v reducesTo_S32x16384_S_d0_1 h_S_) main_v6 main_c_1
  let main_v8 : IVec S_ 1 := andi main_v3 main_v7
  let main_v9 : FVec F S16384x32x128 .f32 := Host.absf main_arg2
  let main_cst_2 : FVec F S_ .f32 := constant S_ .f32 0x7F800000#32
  let main_v10 : FVec F S16384x32x128 .f32 := broadcastInDim S16384x32x128 ![] bcast_S_S16384x32x128 main_cst_2
  let main_v11 : IVec S16384x32x128 1 := cmpf .olt main_v9 main_v10
  let main_c_3 : IVec S_ 1 := constantI S_ 1 1#1
  let main_v12 : IVec S_ 1 := (fun x v => Host.reduce IntOp.andi x v reducesTo_S16384x32x128_S_d0_1_2 h_S_) main_v11 main_c_3
  let main_v13 : IVec S_ 1 := andi main_v8 main_v12
  let main_v14 : FVec F S32x16384 .f32 := Host.absf main_arg3
  let main_cst_4 : FVec F S_ .f32 := constant S_ .f32 0x7F800000#32
  let main_v15 : FVec F S32x16384 .f32 := broadcastInDim S32x16384 ![] bcast_S_S32x16384 main_cst_4
  let main_v16 : IVec S32x16384 1 := cmpf .olt main_v14 main_v15
  fn_part1 (F := F) main_v13 main_v16
-- ==== Kernel.lean ====
abbrev S16384x32x128 : Shape := ⟨3, ![16384, 32, 128]⟩
abbrev S32x16384 : Shape := ⟨2, ![32, 16384]⟩
abbrev S256x32x128 : Shape := ⟨3, ![256, 32, 128]⟩
abbrev S32x256 : Shape := ⟨2, ![32, 256]⟩
abbrev S256x32 : Shape := ⟨2, ![256, 32]⟩
abbrev S256x32x1 : Shape := ⟨3, ![256, 32, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x32x128, .f32⟩
  | .hbm, ⟨1, _⟩ => ⟨S32x16384, .f32⟩
  | .hbm, ⟨2, _⟩ => ⟨S16384x32x128, .f32⟩
  | .hbm, ⟨3, _⟩ => ⟨S32x16384, .f32⟩
  | .hbm, ⟨4, _⟩ => ⟨S16384x32x128, .f32⟩
  | .hbm, ⟨5, _⟩ => ⟨S32x16384, .f32⟩
  | .local _ .vmem, ⟨0, _⟩ => ⟨S256x32x128, .f32⟩
  | .local _ .vmem, ⟨1, _⟩ => ⟨S256x32x128, .f32⟩
  | .local _ .vmem, ⟨2, _⟩ => ⟨S32x256, .f32⟩
  | .local _ .vmem, ⟨3, _⟩ => ⟨S32x256, .f32⟩
  | .local _ .vmem, ⟨4, _⟩ => ⟨S256x32x128, .f32⟩
  | .local _ .vmem, ⟨5, _⟩ => ⟨S256x32x128, .f32⟩
  | .local _ .vmem, ⟨6, _⟩ => ⟨S32x256, .f32⟩
  | .local _ .vmem, ⟨7, _⟩ => ⟨S32x256, .f32⟩
  | .local _ .vmem, ⟨8, _⟩ => ⟨S256x32x128, .f32⟩
  | .local _ .vmem, ⟨9, _⟩ => ⟨S256x32x128, .f32⟩
  | .local _ .vmem, ⟨10, _⟩ => ⟨S32x256, .f32⟩
  | .local _ .vmem, ⟨11, _⟩ => ⟨S32x256, .f32⟩
  | _, _ => ⟨S16384x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S32x256_S32x256_0_0 : ∀ a, (![0, 0] : Fin 2 → Nat) a + S32x256.size a ≤ S32x256.size a
  h_S32x256 : 0 < S32x256.numel
  transposes_S32x256_p1_0_S256x32 : S32x256.Transposes [1, 0] S256x32
  shapeCasts_S256x32_S256x32x1 : S256x32.ShapeCasts S256x32x1
  inb_S256x32x128_S256x32x128_0_0_0 : ∀ a, (![0, 0, 0] : Fin 3 → Nat) a + S256x32x128.size a ≤ S256x32x128.size a
  h_S256x32x128 : 0 < S256x32x128.numel
  broadcasts_S256x32x1_S256x32x128 : S256x32x1.Broadcasts S256x32x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x128.size a ≤ S16384x32x128.size a
  hwx0_0 : ∀ i : grid0.Coords, EltTy.bits .f32 = 32 ∨ (Rect.block (s := S16384x32x128) S256x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x16384.size a
  hwx0_1 : ∀ i : grid0.Coords, EltTy.bits .f32 = 32 ∨ (Rect.block (s := S32x16384) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32x128.size a ≤ S16384x32x128.size a
  hwx0_2 : ∀ i : grid0.Coords, EltTy.bits .f32 = 32 ∨ (Rect.block (s := S16384x32x128) S256x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x16384.size a
  hwx0_3 : ∀ i : grid0.Coords, EltTy.bits .f32 = 32 ∨ (Rect.block (s := S32x16384) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x32x128.size a ≤ S16384x32x128.size a
  hwx0_4 : ∀ i : grid0.Coords, EltTy.bits .f32 = 32 ∨ (Rect.block (s := S16384x32x128) S256x32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S32x16384.size a
  hwx0_5 : ∀ i : grid0.Coords, EltTy.bits .f32 = 32 ∨ (Rect.block (s := S32x16384) S32x256.size (cc0_transform_5 i) (hinb0_5 i)).WholeWords (EltTy.packing .f32)

variable [Facts₀]

abbrev win0_0 : Pipeline.Window sig grid0 :=
  Pipeline.Window.ofSpec (Memref.whole main_arg0) S256x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S256x32x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S32x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x32x128 : Shape := ⟨3, ![16384, 32, 128]⟩
abbrev S32x16384 : Shape := ⟨2, ![32, 16384]⟩
abbrev S16384x32 : Shape := ⟨2, ![16384, 32]⟩
abbrev S_ : Shape := ⟨0, ![]⟩
abbrev S16384x32x1 : Shape := ⟨3, ![16384, 32, 1]⟩

abbrev nBuf : Space → Nat
  | .hbm => 46
  | .vmem => 0
  | .smem => 0
  | _ => 0

abbrev bufTy : (tb : Table) → Fin (tcTables nBuf tb) → BufTy
  | .hbm, ⟨0, _⟩ => ⟨S16384x32x128, .f32⟩
  | .hbm, ⟨1, _⟩ => ⟨S32x16384, .f32⟩
  | .hbm, ⟨2, _⟩ => ⟨S16384x32x128, .f32⟩
  | .hbm, ⟨3, _⟩ => ⟨S32x16384, .f32⟩
  | .hbm, ⟨4, _⟩ => ⟨S16384x32, .f32⟩
  | .hbm, ⟨5, _⟩ => ⟨S16384x32, .f32⟩
  | .hbm, ⟨6, _⟩ => ⟨S16384x32, .f32⟩
  | .hbm, ⟨7, _⟩ => ⟨S_, .f32⟩
  | .hbm, ⟨8, _⟩ => ⟨S16384x32, .f32⟩
  | .hbm, ⟨9, _⟩ => ⟨S16384x32, .i1⟩
  | .hbm, ⟨10, _⟩ => ⟨S_, .f32⟩
  | .hbm, ⟨11, _⟩ => ⟨S16384x32, .f32⟩
  | .hbm, ⟨12, _⟩ => ⟨S16384x32, .i1⟩
  | .hbm, ⟨13, _⟩ => ⟨S16384x32, .i1⟩
  | .hbm, ⟨14, _⟩ => ⟨S_, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S_, .f32⟩
  | .hbm, ⟨19, _⟩ => ⟨S16384x32, .f32⟩
  | .hbm, ⟨20, _⟩ => ⟨S16384x32, .i1⟩
  | .hbm, ⟨21, _⟩ => ⟨S_, .f32⟩
  | .hbm, ⟨22, _⟩ => ⟨S16384x32, .f32⟩
  | .hbm, ⟨23, _⟩ => ⟨S16384x32, .i1⟩
  | .hbm, ⟨24, _⟩ => ⟨S16384x32, .i1⟩
  | .hbm, ⟨25, _⟩ => ⟨S_, .f32⟩
  | .hbm, ⟨26, _⟩ => ⟨S16384x32, .f32⟩
  | .hbm, ⟨27, _⟩ => ⟨S16384x32, .f32⟩
  | .hbm, ⟨28, _⟩ => ⟨S16384x32, .f32⟩
  | .hbm, ⟨29, _⟩ => ⟨S16384x32, .f32⟩
  | .hbm, ⟨30, _⟩ => ⟨S16384x32, .f32⟩
  | .hbm, ⟨31, _⟩ => ⟨S16384x32, .f32⟩
  | .hbm, ⟨32, _⟩ => ⟨S16384x32, .f32⟩
  | .hbm, ⟨33, _⟩ => ⟨S16384x32, .f32⟩
  | .hbm, ⟨34, _⟩ => ⟨S16384x32, .f32⟩
  | .hbm, ⟨35, _⟩ => ⟨S16384x32, .f32⟩
  | .hbm, ⟨36, _⟩ => ⟨S32x16384, .f32⟩
  | .hbm, ⟨37, _⟩ => ⟨S16384x32, .f32⟩
  | .hbm, ⟨38, _⟩ => ⟨S16384x32x1, .f32⟩
  | .hbm, ⟨39, _⟩ => ⟨S16384x32, .f32⟩
  | .hbm, ⟨40, _⟩ => ⟨S16384x32x1, .f32⟩
  | .hbm, ⟨41, _⟩ => ⟨S16384x32x128, .f32⟩
  | .hbm, ⟨42, _⟩ => ⟨S16384x32x128, .f32⟩
  | .hbm, ⟨43, _⟩ => ⟨S16384x32x128, .f32⟩
  | .hbm, ⟨44, _⟩ => ⟨S16384x32x128, .f32⟩
  | .hbm, ⟨45, _⟩ => ⟨S16384x32x128, .f32⟩
  | _, _ => ⟨S16384x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_call1_v0 : Ref sig .tc := ⟨.hbm, 15, rfl⟩
abbrev main_v6 : Ref sig .tc := ⟨.hbm, 16, rfl⟩
abbrev main_call2_v0 : Ref sig .tc := ⟨.hbm, 17, rfl⟩
abbrev main_call2_cst : Ref sig .tc := ⟨.hbm, 18, rfl⟩
abbrev main_call2_v1 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_call3_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  transposes_S32x16384_S16384x32_1_0 : S32x16384.Transposes [1, 0] S16384x32
  bcast_S_S16384x32 : S_.BroadcastsInDim S16384x32 (![] : Fin 0 → Fin S16384x32.rank)
  transposes_S16384x32_S32x16384_1_0 : S16384x32.Transposes [1, 0] S32x16384
  bcast_S16384x32_S16384x32x1_0_1 : S16384x32.BroadcastsInDim S16384x32x1 (![0, 1] : Fin 2 → Fin S16384x32x1.rank)
  bcast_S16384x32x1_S16384x32x128_0_1_2 : S16384x32x1.BroadcastsInDim S16384x32x128 (![0, 1, 2] : Fin 3 → Fin S16384x32x128.rank)

variable [Facts₀]

class Facts : Prop extends Facts₀ where

variable [Facts]
-- ==== Proof.MergeSpec.lean ====
/-
  The merge of two partial attention results by their log-sum-exp weights, as ONE scalar formula.

  For one (head, token) pair let `a` and `b` be the two log-sum-exp values. Each is first SANITISED: `+∞` (recognised as
  `|x| = +∞` and `x > 0`) is replaced by `-∞`, every other value is kept. With `M = max a' b'` the two weights are
  `e^(a' - M)` and `e^(b' - M)`, their sum is `S`, the merged log-sum-exp is `log S + M`, and a merged output entry is
  `p · (e^(a' - M) / S) + s · (e^(b' - M) / S)` for the two partial outputs `p` and `s` at that (token, head, lane).

  Everything here is stated with the float operations of an arbitrary float family `F`, in the order the formula above
  writes them; nothing is rearranged, so no law of the extended reals is used anywhere: the two programs compared against
  this formula differ only in WHERE they transpose the (head, token) arrays, not in what they compute.

  The arrays: outputs are indexed (token, head, lane) over [16384, 32, 128]; log-sum-exps (head, token) over [32, 16384].
-/
import Idealize.ShloMosaic.PureOps.Ideal

noncomputable section

namespace Cert.LseMerge

open Idealize.ShloMosaic

variable {F : FTy → Type} [FloatOps F]

/-- The outputs' shape: (token, head, lane). -/
abbrev OutShape : Shape := ⟨3, ![16384, 32, 128]⟩
/-- The log-sum-exps' shape: (head, token). -/
abbrev LseShape : Shape := ⟨2, ![32, 16384]⟩

/-- A log-sum-exp value with `+∞` replaced by `-∞`: `+∞` is the value whose absolute value equals `+∞` and that is
    positive; every other value is kept. -/
def sanitize (x : F .f32) : F .f32 :=
  Scalar.select
    (IntOp.andi (FloatOps.cmpf .oeq (FloatOps.absf x) (Scalar.ofBits .f32 0x7F800000#32))
      (FloatOps.cmpf .ogt x (Scalar.ofBits .f32 0x00000000#32)))
    (Scalar.ofBits .f32 0xFF800000#32) x

/-- The larger of the two sanitised log-sum-exps. -/
def top (a b : F .f32) : F .f32 := FloatOps.maximumf (sanitize a) (sanitize b)

/-- The first partial result's weight, `e^(a' - M)`. -/
def weightA (a b : F .f32) : F .f32 := FloatOps.exp (FloatOps.subf (sanitize a) (top a b))

/-- The second partial result's weight, `e^(b' - M)`. -/
def weightB (a b : F .f32) : F .f32 := FloatOps.exp (FloatOps.subf (sanitize b) (top a b))

/-- The sum of the two weights. -/
def total (a b : F .f32) : F .f32 := FloatOps.addf (weightA a b) (weightB a b)

/-- The merged log-sum-exp, `log S + M`. -/
def mergedLse (a b : F .f32) : F .f32 := FloatOps.addf (FloatOps.log (total a b)) (top a b)

/-- A merged output entry: `p · (e^(a' - M) / S) + s · (e^(b' - M) / S)`. -/
def mergedOut (p a s b : F .f32) : F .f32 :=
  FloatOps.addf (FloatOps.mulf p (FloatOps.divf (weightA a b) (total a b)))
    (FloatOps.mulf s (FloatOps.divf (weightB a b) (total a b)))

/-- The (head, token) entry of a log-sum-exp array that the output entry (token, head, lane) is weighted by. -/
abbrev lseOf (i : OutShape.Idx) : LseShape.Idx := fun a => match a with
  | ⟨0, _⟩ => ⟨(i 1).val, (i 1).isLt⟩
  | ⟨1, _⟩ => ⟨(i 0).val, (i 0).isLt⟩

/-- THE MERGED OUTPUT ARRAY as one function of the four argument arrays, entry by entry. -/
def outArr (po : OutShape.Idx → F .f32) (pl : LseShape.Idx → F .f32) (so : OutShape.Idx → F .f32) (sl : LseShape.Idx → F .f32) :
    OutShape.Idx → F .f32 :=
  fun i => mergedOut (po i) (pl (lseOf i)) (so i) (sl (lseOf i))

/-- THE MERGED LOG-SUM-EXP ARRAY as one function of the two log-sum-exp arrays, entry by entry. -/
def lseArr (pl sl : LseShape.Idx → F .f32) : LseShape.Idx → F .f32 :=
  fun i => mergedLse (pl i) (sl i)

end Cert.LseMerge

end
-- ==== Proof.KernelMerge.lean ====
/-
  What the kernel's run leaves in its two result arrays: the merge formula's two arrays.

  The grid has 64 points; point `t` works on tokens `256 t … 256 t + 255`. It loads the two partial outputs' blocks
  [256, 32, 128] (tokens × heads × lanes) and the two log-sum-exp blocks [32, 256] (heads × tokens), computes on the
  (head, token) tiles the sanitised values, their maximum, the two weights, their sum, stores `log S + M` as the merged
  log-sum-exp block, and transposes the two quotient tiles to (token, head), gives them a unit lane axis and broadcasts them
  along the 128 lanes to scale the two partial outputs, whose sum it stores as the merged output block.

  Read at one entry, the stored log-sum-exp block is the formula at the same (head, token) entry of the two loaded tiles, and
  the stored output block at (token, head, lane) is the formula at the two loaded outputs there and at the tiles' entry
  (head, token). Each block is a restriction of one whole-array function, because every window's block index moves with the
  grid point along the token axis only; the 64 blocks of each result tile its array, so after the run each result array IS
  that function of the argument arrays.
-/
import proofs.«106992_j3470333575378_1_alg».proof.Proof.KernelBlocksGen
import proofs.«106992_j3470333575378_1_alg».proof.Proof.MergeSpec
import Idealize.ShloMosaic.Lib.Pipeline.Value

noncomputable section

namespace Cert.KernelIdeal.Merge

open Cert.KernelIdeal Cert.KernelIdeal.Gen Cert.KernelIdeal.ValueP Idealize.ShloMosaic Idealize.ShloMosaic.TcCoe Idealize.SL.Sem
open Idealize.ShloMosaic.Pipeline (Dat)
open Cert.LseMerge

variable {F : FTy → Type} [FloatOps F]

/-! ## The body's values at one entry -/

section tiles

variable (a b : Vec F S32x256 .f32) (j : S32x256.Idx)

/-- The first tile, sanitised, at an entry. -/
theorem sanA_at : k0_pay1 a j = sanitize (a j) := rfl
/-- The second tile, sanitised, at an entry. -/
theorem sanB_at : k0_pay2 b j = sanitize (b j) := rfl
/-- Their maximum at an entry. -/
theorem top_at : k0_pay3 a b j = top (a j) (b j) := rfl
/-- The first weight at an entry. -/
theorem weightA_at : k0_pay4 a b j = weightA (a j) (b j) := rfl
/-- The second weight at an entry. -/
theorem weightB_at : k0_pay5 a b j = weightB (a j) (b j) := rfl
/-- The weights' sum at an entry. -/
theorem total_at : k0_pay6 a b j = total (a j) (b j) := rfl
/-- The stored log-sum-exp tile at an entry. -/
theorem lse_at : k0_pay7 a b j = mergedLse (a j) (b j) := rfl

end tiles

/-- The (head, token) entry of a tile under the block entry (token, head, lane). -/
abbrev tileOf (x : S256x32x128.Idx) : S32x256.Idx := fun a => match a with
  | ⟨0, _⟩ => ⟨(x 1).val, (x 1).isLt⟩
  | ⟨1, _⟩ => ⟨(x 0).val, (x 0).isLt⟩

/-- A (head, token) tile, transposed to (token, head), given a unit lane axis and broadcast along the 128 lanes, read at
    (token, head, lane) is the tile at (head, token): the broadcast forgets the lane, the cast keeps the row-major position,
    the transpose swaps the two coordinates. -/
theorem lanes_at (w : FVec F S32x256 .f32) (x : S256x32x128.Idx) :
    broadcastTo S256x32x128 (shapeCast S256x32x1 (transpose S256x32 [1, 0] w transposes_S32x256_p1_0_S256x32)
      shapeCasts_S256x32_S256x32x1) broadcasts_S256x32x1_S256x32x128 x = w (tileOf x) := by
  have hx0 : (x 0).val < 256 := (x 0).isLt
  have hx1 : (x 1).val < 32 := (x 1).isLt
  refine (broadcastTo_apply _ _ x (fun a => match a with
      | ⟨0, _⟩ => ⟨(x 0).val, hx0⟩ | ⟨1, _⟩ => ⟨(x 1).val, hx1⟩ | ⟨2, _⟩ => ⟨0, Nat.one_pos⟩ : S256x32x1.Idx) (fun a => match a with
      | ⟨0, _⟩ => by show (x 0).val = (if (256 : Nat) = 1 then 0 else (x 0).val); rw [if_neg (by decide)]
      | ⟨1, _⟩ => by show (x 1).val = (if (32 : Nat) = 1 then 0 else (x 1).val); rw [if_neg (by decide)]
      | ⟨2, _⟩ => by show 0 = (if (1 : Nat) = 1 then 0 else (x 2).val); rw [if_pos rfl])).trans ?_
  refine (shapeCast_apply _ _ _ (fun a => match a with
      | ⟨0, _⟩ => ⟨(x 0).val, hx0⟩ | ⟨1, _⟩ => ⟨(x 1).val, hx1⟩ : S256x32.Idx) (by
      rw [Shape.rowMajor_val_two, Shape.rowMajor_val_three]
      show (x 0).val * 32 + (x 1).val = ((x 0).val * 32 + (x 1).val) * 1 + 0
      omega)).trans ?_
  exact transpose_apply [1, 0] _ _ _ (tileOf x) (fun b => match b with
    | ⟨0, _⟩ => rfl
    | ⟨1, _⟩ => rfl)

/-- The stored output block at (token, head, lane): the formula at the two loaded outputs there and at the two tiles'
    entry (head, token). -/
theorem out_at (a b : Vec F S32x256 .f32) (p s : Vec F S256x32x128 .f32) (x : S256x32x128.Idx) :
    k0_pay8 a b p s x = mergedOut (p x) (a (tileOf x)) (s x) (b (tileOf x)) := by
  unfold k0_pay8
  show FloatOps.addf
      (FloatOps.mulf (p x) (broadcastTo S256x32x128 (shapeCast S256x32x1 (transpose S256x32 [1, 0] (divf (k0_pay4 a b) (k0_pay6 a b)) _) _) _ x))
      (FloatOps.mulf (s x) (broadcastTo S256x32x128 (shapeCast S256x32x1 (transpose S256x32 [1, 0] (divf (k0_pay5 a b) (k0_pay6 a b)) _) _) _ x)) = _
  rw [lanes_at, lanes_at]
  rfl

/-! ## From blocks to arrays -/

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The six index maps over the grid: every window's block index is the grid point along the token axis and zero along the
    others. -/
theorem idx_facts : ∀ t : Fin cfg0.N,
    (win0_0.index t (0 : Fin 3) = t.val ∧ win0_0.index t (1 : Fin 3) = 0 ∧ win0_0.index t (2 : Fin 3) = 0)
    ∧ (win0_2.index t (0 : Fin 3) = t.val ∧ win0_2.index t (1 : Fin 3) = 0 ∧ win0_2.index t (2 : Fin 3) = 0)
    ∧ (win0_4.index t (0 : Fin 3) = t.val ∧ win0_4.index t (1 : Fin 3) = 0 ∧ win0_4.index t (2 : Fin 3) = 0)
    ∧ (win0_1.index t (0 : Fin 2) = 0 ∧ win0_1.index t (1 : Fin 2) = t.val)
    ∧ (win0_3.index t (0 : Fin 2) = 0 ∧ win0_3.index t (1 : Fin 2) = t.val)
    ∧ (win0_5.index t (0 : Fin 2) = 0 ∧ win0_5.index t (1 : Fin 2) = t.val) :=
  (by decide +kernel : ∀ t : Fin grid0.N, _)

/-- WHAT POINT `t` WRITES BACK to the merged output array is block `t` of the formula's output array. -/
theorem flushed4_eq (c : Dev nD) (t : Fin cfg0.N) :
    (dats m 0 c).flushed 4 t = ((cfg0.win 4).blk t).view.read (Elt F)
      (outArr (V m c main_arg0) (V m c main_arg1) (V m c main_arg2) (V m c main_arg3)) := by
  rw [flushed4]
  unfold out0_4
  rw [View.canon_unit_zero hz3]
  simp only [View.ld_unit_zero (S := S256x32x128) hz3, View.ld_unit_zero (S := S32x256) hz2]
  obtain ⟨⟨p0, p1, p2⟩, ⟨s0, s1, s2⟩, ⟨o0, o1, o2⟩, ⟨a0, a1⟩, ⟨b0, b1⟩, -⟩ := idx_facts t
  funext j
  refine (out_at (F := F) (iblk m c 1 t) (iblk m c 3 t) (iblk m c 0 t) (iblk m c 2 t) j).trans ?_
  show mergedOut (V m c main_arg0 (((cfg0.win 0).blk t).view.emb j)) (V m c main_arg1 (((cfg0.win 1).blk t).view.emb (tileOf j)))
      (V m c main_arg2 (((cfg0.win 2).blk t).view.emb j)) (V m c main_arg3 (((cfg0.win 3).blk t).view.emb (tileOf j)))
    = mergedOut (V m c main_arg0 (((cfg0.win 4).blk t).view.emb j)) (V m c main_arg1 (lseOf (((cfg0.win 4).blk t).view.emb j)))
      (V m c main_arg2 (((cfg0.win 4).blk t).view.emb j)) (V m c main_arg3 (lseOf (((cfg0.win 4).blk t).view.emb j)))
  have h0 : ((cfg0.win 0).blk t).view.emb j = ((cfg0.win 4).blk t).view.emb j := by
    funext a; apply Fin.ext
    match a with
    | ⟨0, _⟩ => show win0_0.index t (0 : Fin 3) * 256 + 1 * (j 0).val = win0_4.index t (0 : Fin 3) * 256 + 1 * (j 0).val; omega
    | ⟨1, _⟩ => show win0_0.index t (1 : Fin 3) * 32 + 1 * (j 1).val = win0_4.index t (1 : Fin 3) * 32 + 1 * (j 1).val; omega
    | ⟨2, _⟩ => show win0_0.index t (2 : Fin 3) * 128 + 1 * (j 2).val = win0_4.index t (2 : Fin 3) * 128 + 1 * (j 2).val; omega
  have h2 : ((cfg0.win 2).blk t).view.emb j = ((cfg0.win 4).blk t).view.emb j := by
    funext a; apply Fin.ext
    match a with
    | ⟨0, _⟩ => show win0_2.index t (0 : Fin 3) * 256 + 1 * (j 0).val = win0_4.index t (0 : Fin 3) * 256 + 1 * (j 0).val; omega
    | ⟨1, _⟩ => show win0_2.index t (1 : Fin 3) * 32 + 1 * (j 1).val = win0_4.index t (1 : Fin 3) * 32 + 1 * (j 1).val; omega
    | ⟨2, _⟩ => show win0_2.index t (2 : Fin 3) * 128 + 1 * (j 2).val = win0_4.index t (2 : Fin 3) * 128 + 1 * (j 2).val; omega
  have h1 : ((cfg0.win 1).blk t).view.emb (tileOf j) = lseOf (((cfg0.win 4).blk t).view.emb j) := by
    funext a; apply Fin.ext
    match a with
    | ⟨0, _⟩ => show win0_1.index t (0 : Fin 2) * 32 + 1 * (j 1).val = win0_4.index t (1 : Fin 3) * 32 + 1 * (j 1).val; omega
    | ⟨1, _⟩ => show win0_1.index t (1 : Fin 2) * 256 + 1 * (j 0).val = win0_4.index t (0 : Fin 3) * 256 + 1 * (j 0).val; omega
  have h3 : ((cfg0.win 3).blk t).view.emb (tileOf j) = lseOf (((cfg0.win 4).blk t).view.emb j) := by
    funext a; apply Fin.ext
    match a with
    | ⟨0, _⟩ => show win0_3.index t (0 : Fin 2) * 32 + 1 * (j 1).val = win0_4.index t (1 : Fin 3) * 32 + 1 * (j 1).val; omega
    | ⟨1, _⟩ => show win0_3.index t (1 : Fin 2) * 256 + 1 * (j 0).val = win0_4.index t (0 : Fin 3) * 256 + 1 * (j 0).val; omega
  rw [h0, h1, h2, h3]

/-- WHAT POINT `t` WRITES BACK to the merged log-sum-exp array is block `t` of the formula's log-sum-exp array. -/
theorem flushed5_eq (c : Dev nD) (t : Fin cfg0.N) :
    (dats m 0 c).flushed 5 t = ((cfg0.win 5).blk t).view.read (Elt F) (lseArr (V m c main_arg1) (V m c main_arg3)) := by
  rw [flushed5]
  unfold out0_5
  rw [View.canon_unit_zero hz2]
  simp only [View.ld_unit_zero (S := S32x256) hz2]
  obtain ⟨-, -, -, ⟨a0, a1⟩, ⟨b0, b1⟩, ⟨l0, l1⟩⟩ := idx_facts t
  funext j
  show mergedLse (V m c main_arg1 (((cfg0.win 1).blk t).view.emb j)) (V m c main_arg3 (((cfg0.win 3).blk t).view.emb j))
    = mergedLse (V m c main_arg1 (((cfg0.win 5).blk t).view.emb j)) (V m c main_arg3 (((cfg0.win 5).blk t).view.emb j))
  have h1 : ((cfg0.win 1).blk t).view.emb j = ((cfg0.win 5).blk t).view.emb j := by
    funext a; apply Fin.ext
    match a with
    | ⟨0, _⟩ => show win0_1.index t (0 : Fin 2) * 32 + 1 * (j 0).val = win0_5.index t (0 : Fin 2) * 32 + 1 * (j 0).val; omega
    | ⟨1, _⟩ => show win0_1.index t (1 : Fin 2) * 256 + 1 * (j 1).val = win0_5.index t (1 : Fin 2) * 256 + 1 * (j 1).val; omega
  have h3 : ((cfg0.win 3).blk t).view.emb j = ((cfg0.win 5).blk t).view.emb j := by
    funext a; apply Fin.ext
    match a with
    | ⟨0, _⟩ => show win0_3.index t (0 : Fin 2) * 32 + 1 * (j 0).val = win0_5.index t (0 : Fin 2) * 32 + 1 * (j 0).val; omega
    | ⟨1, _⟩ => show win0_3.index t (1 : Fin 2) * 256 + 1 * (j 1).val = win0_5.index t (1 : Fin 2) * 256 + 1 * (j 1).val; omega
  rw [h1, h3]

/-- An entry of the output array is in point `t`'s block iff each coordinate is in the block's range on its axis. -/
theorem mem_blk4 (t : Fin cfg0.N) (i : S16384x32x128.Idx) :
    i ∈ ((cfg0.win 4).blk t).view.set ↔ ∀ a : Fin 3, win0_4.index t a * S256x32x128.size a ≤ (i a).val ∧ (i a).val < win0_4.index t a * S256x32x128.size a + S256x32x128.size a := by
  show i ∈ ((View.whole main_v0_0).slice (win0_4.rect t)).set ↔ _
  rw [View.set_slice_whole, Rect.mem_set_unit]
  exact Iff.rfl

/-- An entry of the log-sum-exp array is in point `t`'s block iff each coordinate is in the block's range on its axis. -/
theorem mem_blk5 (t : Fin cfg0.N) (i : S32x16384.Idx) :
    i ∈ ((cfg0.win 5).blk t).view.set ↔ ∀ a : Fin 2, win0_5.index t a * S32x256.size a ≤ (i a).val ∧ (i a).val < win0_5.index t a * S32x256.size a + S32x256.size a := by
  show i ∈ ((View.whole main_v0_1).slice (win0_5.rect t)).set ↔ _
  rw [View.set_slice_whole, Rect.mem_set_unit]
  exact Iff.rfl

/-- Every entry of the output array is in the block of the point its token falls in: token `n` is in block `n / 256`. -/
theorem cover4 (i : S16384x32x128.Idx) : ∃ t : Fin cfg0.N, (cfg0.win 4).flush t = true ∧ i ∈ ((cfg0.win 4).blk t).view.set := by
  have hi0 : (i 0).val < 16384 := (i 0).isLt
  have hi1 : (i 1).val < 32 := (i 1).isLt
  have hi2 : (i 2).val < 128 := (i 2).isLt
  obtain ⟨t, ht⟩ : ∃ t : Fin cfg0.N, t.val = (i 0).val / 256 :=
    ⟨⟨(i 0).val / 256, by show (i 0).val / 256 < grid0.N; rw [N_0]; omega⟩, rfl⟩
  obtain ⟨-, -, ⟨o0, o1, o2⟩, -, -, -⟩ := idx_facts t
  refine ⟨t, flush0_4 t, ?_⟩
  rw [mem_blk4]
  intro a
  match a with
  | ⟨0, _⟩ => show win0_4.index t (0 : Fin 3) * 256 ≤ (i 0).val ∧ (i 0).val < win0_4.index t (0 : Fin 3) * 256 + 256; omega
  | ⟨1, _⟩ => show win0_4.index t (1 : Fin 3) * 32 ≤ (i 1).val ∧ (i 1).val < win0_4.index t (1 : Fin 3) * 32 + 32; omega
  | ⟨2, _⟩ => show win0_4.index t (2 : Fin 3) * 128 ≤ (i 2).val ∧ (i 2).val < win0_4.index t (2 : Fin 3) * 128 + 128; omega

/-- Every entry of the log-sum-exp array is in the block of the point its token falls in. -/
theorem cover5 (i : S32x16384.Idx) : ∃ t : Fin cfg0.N, (cfg0.win 5).flush t = true ∧ i ∈ ((cfg0.win 5).blk t).view.set := by
  have hi0 : (i 0).val < 32 := (i 0).isLt
  have hi1 : (i 1).val < 16384 := (i 1).isLt
  obtain ⟨t, ht⟩ : ∃ t : Fin cfg0.N, t.val = (i 1).val / 256 :=
    ⟨⟨(i 1).val / 256, by show (i 1).val / 256 < grid0.N; rw [N_0]; omega⟩, rfl⟩
  obtain ⟨-, -, -, -, -, ⟨l0, l1⟩⟩ := idx_facts t
  refine ⟨t, flush0_5 t, ?_⟩
  rw [mem_blk5]
  intro a
  match a with
  | ⟨0, _⟩ => show win0_5.index t (0 : Fin 2) * 32 ≤ (i 0).val ∧ (i 0).val < win0_5.index t (0 : Fin 2) * 32 + 32; omega
  | ⟨1, _⟩ => show win0_5.index t (1 : Fin 2) * 256 ≤ (i 1).val ∧ (i 1).val < win0_5.index t (1 : Fin 2) * 256 + 256; omega

/-- THE MERGED OUTPUT ARRAY after the run. -/
theorem final4 (c : Dev nD) : (dats m 0 c).arrAt 4 cfg0.N
    = outArr (m ((c : Thread nD τ).loc main_arg0)) (m ((c : Thread nD τ).loc main_arg1)) (m ((c : Thread nD τ).loc main_arg2)) (m ((c : Thread nD τ).loc main_arg3)) :=
  (dats m 0 c).arrAt_eq_of_cover 4 (outArr (V m c main_arg0) (V m c main_arg1) (V m c main_arg2) (V m c main_arg3))
    (fun t _ => flushed4_eq m c t) cover4

/-- THE MERGED LOG-SUM-EXP ARRAY after the run. -/
theorem final5 (c : Dev nD) : (dats m 0 c).arrAt 5 cfg0.N
    = lseArr (m ((c : Thread nD τ).loc main_arg1)) (m ((c : Thread nD τ).loc main_arg3)) :=
  (dats m 0 c).arrAt_eq_of_cover 5 (lseArr (V m c main_arg1) (V m c main_arg3)) (fun t _ => flushed5_eq m c t) cover5

/-- The kernel's run, read: both result arrays at the formula's arrays of the arguments, the arguments unchanged. -/
theorem run : θ_run defs (onTc (τ := τ) (main (F := F))) ⟨m, fun _ => 0, ρ⟩ fun r => ∀ c : Dev nD,
      r.2.mem ((c : Thread nD τ).loc main_v0_0)
        = outArr (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = lseArr (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Cert.KernelIdeal.Merge

end
-- ==== Proof.RefMerge.lean ====
/-
  The reference program's two results ARE the merge formula's two arrays.

  The reference first transposes the two (head, token) log-sum-exp arrays to (token, head), computes the sanitised values, their
  maximum, the two weights, their sum, the merged log-sum-exp and the two quotients entry by entry, transposes the merged
  log-sum-exp back, and multiplies each partial output by its quotient broadcast along the lanes. Read at one entry, every
  stage is the formula's corresponding piece at the (head, token) pair under it: a stage over (token, head) at `j` reads the
  arguments at `j` swapped. At the ideal instance the host's absolute value, exponential, logarithm and quotient are the same
  functions as the kernel's, so each stage lemma closes by unfolding.
-/
import proofs.«106992_j3470333575378_1_alg».proof.Proof.Gen.ReferenceIdeal.Read
import proofs.«106992_j3470333575378_1_alg».proof.Proof.MergeSpec

noncomputable section

namespace Cert.ReferenceIdeal.RefValue

open Cert.ReferenceIdeal Cert.ReferenceIdeal.Gen Cert.ReferenceIdeal.Read Idealize.ShloMosaic Cert.LseMerge

/-- The (head, token) pair under a (token, head) index. -/
abbrev sw (j : S16384x32.Idx) : S32x16384.Idx := idx_main_v0 j

variable (x1 x3 : (⟨S32x16384, .f32⟩ : BufTy).Contents (Elt Ideal))

/-- The first log-sum-exp, transposed and sanitised, at (token, head). -/
theorem sanA_at (j : S16384x32.Idx) : val_main_v6 (F := Ideal) x1 j = sanitize (F := Ideal) (x1 (sw j)) := by
  rw [val_main_v6_apply, val_main_v5_apply, val_main_v2_apply, val_main_v4_apply, val_main_call0_v0_apply,
    val_main_call0_v1_apply, val_main_call0_cst_apply, val_main_v3_apply, val_main_cst_apply, val_main_call1_v0_apply,
    val_main_cst_0_apply, val_main_v0_apply]
  rfl

/-- The second log-sum-exp, transposed and sanitised, at (token, head). -/
theorem sanB_at (j : S16384x32.Idx) : val_main_v11 (F := Ideal) x3 j = sanitize (F := Ideal) (x3 (sw j)) := by
  rw [val_main_v11_apply, val_main_v10_apply, val_main_v7_apply, val_main_v9_apply, val_main_call2_v0_apply,
    val_main_call2_v1_apply, val_main_call2_cst_apply, val_main_v8_apply, val_main_cst_1_apply, val_main_call3_v0_apply,
    val_main_cst_2_apply, val_main_v1_apply]
  rfl

/-- Their maximum. -/
theorem top_at (j : S16384x32.Idx) : val_main_v12 (F := Ideal) x1 x3 j = top (F := Ideal) (x1 (sw j)) (x3 (sw j)) := by
  rw [val_main_v12_apply, sanA_at, sanB_at]
  rfl

/-- The first weight. -/
theorem weightA_at (j : S16384x32.Idx) : val_main_v14 (F := Ideal) x1 x3 j = weightA (F := Ideal) (x1 (sw j)) (x3 (sw j)) := by
  rw [val_main_v14_apply, val_main_v13_apply, sanA_at, top_at]
  rfl

/-- The second weight. -/
theorem weightB_at (j : S16384x32.Idx) : val_main_v16 (F := Ideal) x1 x3 j = weightB (F := Ideal) (x1 (sw j)) (x3 (sw j)) := by
  rw [val_main_v16_apply, val_main_v15_apply, sanB_at, top_at]
  rfl

/-- The weights' sum. -/
theorem total_at (j : S16384x32.Idx) : val_main_v17 (F := Ideal) x1 x3 j = total (F := Ideal) (x1 (sw j)) (x3 (sw j)) := by
  rw [val_main_v17_apply, weightA_at, weightB_at]
  rfl

/-- The merged log-sum-exp, still at (token, head). -/
theorem lse_at (j : S16384x32.Idx) : val_main_v19 (F := Ideal) x1 x3 j = mergedLse (F := Ideal) (x1 (sw j)) (x3 (sw j)) := by
  rw [val_main_v19_apply, val_main_v18_apply, total_at, top_at]
  rfl

/-- THE SECOND RESULT: transposed back to (head, token), the merged log-sum-exp array. -/
theorem lse_eq : val_main_v20 (F := Ideal) x1 x3 = lseArr (F := Ideal) x1 x3 := by
  funext i
  have hi : sw (idx_main_v20 i) = i := funext fun a => match a with
    | ⟨0, _⟩ => rfl
    | ⟨1, _⟩ => rfl
  rw [val_main_v20_apply, lse_at, hi]
  rfl

variable (x0 x2 : (⟨S16384x32x128, .f32⟩ : BufTy).Contents (Elt Ideal))

/-- The first quotient, broadcast along the lanes, at (token, head, lane). -/
theorem scaleA_at (i : S16384x32x128.Idx) :
    val_main_v25 (F := Ideal) x1 x3 i = FloatOps.divf (weightA (F := Ideal) (x1 (lseOf i)) (x3 (lseOf i))) (total (F := Ideal) (x1 (lseOf i)) (x3 (lseOf i))) := by
  have hi : sw (idx_main_v22 (idx_main_v25 i)) = lseOf i := funext fun a => match a with
    | ⟨0, _⟩ => rfl
    | ⟨1, _⟩ => rfl
  rw [val_main_v25_apply, val_main_v22_apply, val_main_v21_apply, weightA_at, total_at, hi]
  rfl

/-- The second quotient, broadcast along the lanes, at (token, head, lane). -/
theorem scaleB_at (i : S16384x32x128.Idx) :
    val_main_v27 (F := Ideal) x1 x3 i = FloatOps.divf (weightB (F := Ideal) (x1 (lseOf i)) (x3 (lseOf i))) (total (F := Ideal) (x1 (lseOf i)) (x3 (lseOf i))) := by
  have hi : sw (idx_main_v24 (idx_main_v27 i)) = lseOf i := funext fun a => match a with
    | ⟨0, _⟩ => rfl
    | ⟨1, _⟩ => rfl
  rw [val_main_v27_apply, val_main_v24_apply, val_main_v23_apply, weightB_at, total_at, hi]
  rfl

/-- THE FIRST RESULT: the merged output array. -/
theorem out_eq : val_main_v29 (F := Ideal) x0 x1 x2 x3 = outArr (F := Ideal) x0 x1 x2 x3 := by
  funext i
  rw [val_main_v29_apply, val_main_v26_apply, val_main_v28_apply, scaleA_at, scaleB_at]
  rfl

end Cert.ReferenceIdeal.RefValue

end
-- ==== Proof.lean ====
/-
  The kernel merges two partial attention results by their log-sum-exp weights, 256 tokens per grid point; the reference does
  the same over whole arrays. Per (head, token) pair both sanitise the two log-sum-exps (`+∞` becomes `-∞`), take their
  maximum `M`, the weights `e^(a' - M)` and `e^(b' - M)`, their sum `S`; the merged log-sum-exp is `log S + M` and a merged
  output entry is `p · (e^(a' - M) / S) + s · (e^(b' - M) / S)`. The kernel works on (head, token) tiles and transposes only
  the two quotient tiles before it scales the outputs; the reference transposes the two log-sum-exp arrays first and the
  merged log-sum-exp back at the end. Entry by entry both are the SAME operations in the SAME order (Proof/MergeSpec.lean),
  so no law of the extended reals is needed, and the precondition (finite inputs) is not used: at the ideal instance the
  host's absolute value, exponential, logarithm and quotient are the kernel's.

  The pieces: the reference's two results are the formula's arrays (Proof/RefMerge.lean, over the generated run and its
  read-at-an-index lemmas); each grid point writes back the formula's block and the 64 blocks of each result tile its array
  (Proof/KernelMerge.lean, over the blockwise form of the kernel's run in Proof/KernelBlocksGen.lean). The three frame claims
  are the generated frames (the reference's is its run with the results dropped); the idealization rewrote nothing, so
  `preserves` is `True`.
-/
import proofs.«106992_j3470333575378_1_alg».proof.Defs
import proofs.«106992_j3470333575378_1_alg».proof.Proof.Gen.Kernel
import proofs.«106992_j3470333575378_1_alg».proof.Proof.Gen.Kernel.Skeleton
import proofs.«106992_j3470333575378_1_alg».proof.Proof.Gen.Kernel.Launch
import proofs.«106992_j3470333575378_1_alg».proof.Proof.Gen.Kernel.Points
import proofs.«106992_j3470333575378_1_alg».proof.Proof.Gen.Kernel.Frame
import proofs.«106992_j3470333575378_1_alg».proof.Proof.Gen.KernelIdeal
import proofs.«106992_j3470333575378_1_alg».proof.Proof.Gen.KernelIdeal.Skeleton
import proofs.«106992_j3470333575378_1_alg».proof.Proof.Gen.KernelIdeal.Launch
import proofs.«106992_j3470333575378_1_alg».proof.Proof.Gen.KernelIdeal.Points
import proofs.«106992_j3470333575378_1_alg».proof.Proof.Gen.KernelIdeal.Frame
import proofs.«106992_j3470333575378_1_alg».proof.Proof.Gen.ReferenceIdeal
import proofs.«106992_j3470333575378_1_alg».proof.Proof.Gen.Pre_finite_inputs
import proofs.«106992_j3470333575378_1_alg».proof.Proof.Gen.ReferenceIdeal.Run
import proofs.«106992_j3470333575378_1_alg».proof.Proof.Gen.ReferenceIdeal.Read
import proofs.«106992_j3470333575378_1_alg».proof.Proof.KernelMerge
import proofs.«106992_j3470333575378_1_alg».proof.Proof.RefMerge
import Idealize.ShloMosaic.Adequacy
import Idealize.ShloMosaic.Init

noncomputable section

namespace Cert.Proof

open Idealize.ShloMosaic Idealize.SL.Sem

/-- The kernel as printed runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the four arguments, the kernel's two result arrays end at the formula's two arrays of its
    arguments, and the reference's at the same formula of its own: equal. -/
theorem algebraic : Cert.algebraic_KernelIdeal_ReferenceIdeal := by
  intro m ρ m' ρ' _ hagree
  refine ⟨_, _, Cert.KernelIdeal.Merge.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v29_eq, Cert.ReferenceIdeal.RefValue.out_eq,
      (hagree c).1, (hagree c).2.1, (hagree c).2.2.1, (hagree c).2.2.2]
  · rw [Cert.ReferenceIdeal.Read.val_main_v20_eq, Cert.ReferenceIdeal.RefValue.lse_eq,
      (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
